-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v7) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S128x64x8192 : Shape := ⟨3, ![128, 64, 8192]⟩
abbrev S32x64x64 : Shape := ⟨3, ![32, 64, 64]⟩
abbrev S128 : Shape := ⟨1, ![128]⟩
abbrev S_ : Shape := ⟨0, ![]⟩

class Facts : Prop where
  bcast_S_S128x64x8192 : S_.BroadcastsInDim S128x64x8192 (![] : Fin 0 → Fin S128x64x8192.rank)
  reducesTo_S128x64x8192_S_d0_1_2 : S128x64x8192.ReducesTo [0, 1, 2] S_
  h_S_ : 0 < S_.numel
  bcast_S_S32x64x64 : S_.BroadcastsInDim S32x64x64 (![] : Fin 0 → Fin S32x64x64.rank)
  reducesTo_S32x64x64_S_d0_1_2 : S32x64x64.ReducesTo [0, 1, 2] S_
  bcast_S_S128 : S_.BroadcastsInDim S128 (![] : Fin 0 → Fin S128.rank)
  reducesTo_S128_S_d0 : S128.ReducesTo [0] S_

variable [Facts]

def fn {F : FTy → Type} [FloatOps F] (main_arg0 : FVec F S128x64x8192 .f32) (main_arg1 : FVec F S32x64x64 .f32) (main_arg2 : IVec S128 32) : IVec S_ 1 :=
  let main_v0 : FVec F S128x64x8192 .f32 := Host.absf main_arg0
  let main_cst : FVec F S_ .f32 := constant S_ .f32 0x7F800000#32
  let main_v1 : FVec F S128x64x8192 .f32 := broadcastInDim S128x64x8192 ![] bcast_S_S128x64x8192 main_cst
  let main_v2 : IVec S128x64x8192 1 := cmpf .olt main_v0 main_v1
  let main_c : IVec S_ 1 := constantI S_ 1 1#1
  let main_v3 : IVec S_ 1 := (fun x v => Host.reduce IntOp.andi x v reducesTo_S128x64x8192_S_d0_1_2 h_S_) main_v2 main_c
  let main_v4 : FVec F S32x64x64 .f32 := Host.absf main_arg1
  let main_cst_0 : FVec F S_ .f32 := constant S_ .f32 0x7F800000#32
  let main_v5 : FVec F S32x64x64 .f32 := broadcastInDim S32x64x64 ![] bcast_S_S32x64x64 main_cst_0
  let main_v6 : IVec S32x64x64 1 := cmpf .olt main_v4 main_v5
  let main_c_1 : IVec S_ 1 := constantI S_ 1 1#1
  let main_v7 : IVec S_ 1 := (fun x v => Host.reduce IntOp.andi x v reducesTo_S32x64x64_S_d0_1_2 h_S_) main_v6 main_c_1
  let main_v8 : IVec S_ 1 := andi main_v3 main_v7
  let main_c_2 : IVec S_ 32 := constantI S_ 32 0#32
  let main_v9 : IVec S128 32 := broadcastInDim S128 ![] bcast_S_S128 main_c_2
  let main_v10 : IVec S128 1 := cmpi .sge main_arg2 main_v9
  let main_c_3 : IVec S_ 32 := constantI S_ 32 32#32
  let main_v11 : IVec S128 32 := broadcastInDim S128 ![] bcast_S_S128 main_c_3
  let main_v12 : IVec S128 1 := cmpi .slt main_arg2 main_v11
  let main_v13 : IVec S128 1 := andi main_v10 main_v12
  let main_c_4 : IVec S_ 1 := constantI S_ 1 1#1
  let main_v14 : IVec S_ 1 := (fun x v => Host.reduce IntOp.andi x v reducesTo_S128_S_d0 h_S_) main_v13 main_c_4
  let main_v15 : IVec S_ 1 := andi main_v8 main_v14
  main_v15
-- ==== Kernel.lean ====
abbrev S128x64x8192 : Shape := ⟨3, ![128, 64, 8192]⟩
abbrev S32x64x64 : Shape := ⟨3, ![32, 64, 64]⟩
abbrev S128 : Shape := ⟨1, ![128]⟩
abbrev S_ : Shape := ⟨0, ![]⟩
abbrev S4x64x8192 : Shape := ⟨3, ![4, 64, 8192]⟩
abbrev S1 : Shape := ⟨1, ![1]⟩
abbrev S1x64x64 : Shape := ⟨3, ![1, 64, 64]⟩
abbrev S64x64 : Shape := ⟨2, ![64, 64]⟩
abbrev S1x64x8192 : Shape := ⟨3, ![1, 64, 8192]⟩
abbrev S64x8192 : Shape := ⟨2, ![64, 8192]⟩

abbrev nBuf : Space → Nat
  | .hbm => 13
  | .vmem => 5
  | .smem => 1
  | _ => 0

abbrev bufTy : (tb : Table) → Fin (tcTables nBuf tb) → BufTy
  | .hbm, ⟨0, _⟩ => ⟨S128x64x8192, .f32⟩
  | .hbm, ⟨1, _⟩ => ⟨S32x64x64, .f32⟩
  | .hbm, ⟨2, _⟩ => ⟨S128, .i32⟩
  | .hbm, ⟨3, _⟩ => ⟨S_, .i32⟩
  | .hbm, ⟨4, _⟩ => ⟨S_, .i32⟩
  | .hbm, ⟨5, _⟩ => ⟨S_, .i32⟩
  | .hbm, ⟨6, _⟩ => ⟨S128, .i32⟩
  | .hbm, ⟨7, _⟩ => ⟨S128, .i32⟩
  | .hbm, ⟨8, _⟩ => ⟨S_, .i32⟩
  | .hbm, ⟨9, _⟩ => ⟨S128, .i32⟩
  | .hbm, ⟨10, _⟩ => ⟨S32x64x64, .f32⟩
  | .hbm, ⟨11, _⟩ => ⟨S32x64x64, .bf16⟩
  | .hbm, ⟨12, _⟩ => ⟨S128x64x8192, .f32⟩
  | .local _ .vmem, ⟨0, _⟩ => ⟨S4x64x8192, .f32⟩
  | .local _ .vmem, ⟨1, _⟩ => ⟨S4x64x8192, .f32⟩
  | .local _ .vmem, ⟨2, _⟩ => ⟨S32x64x64, .bf16⟩
  | .local _ .vmem, ⟨3, _⟩ => ⟨S4x64x8192, .f32⟩
  | .local _ .vmem, ⟨4, _⟩ => ⟨S4x64x8192, .f32⟩
  | .local _ .smem, ⟨0, _⟩ => ⟨S128, .i32⟩
  | _, _ => ⟨S128x64x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_c_0 : Ref sig .tc := ⟨.hbm, 4, rfl⟩
abbrev main_call0_v0 : Ref sig .tc := ⟨.hbm, 5, rfl⟩
abbrev main_call0_v1 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![32], ![false]⟩

abbrev pre0 : Pipeline.Prefetch sig := ⟨1, ![main_v0.idx], fun | 0 => main_v0.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let arg0 : BitVec 32 := BitVec.ofNat 32 (i 0).val
  let c4_i32 : BitVec 32 := 4#32
  let v0 : BitVec 32 := Scalar.muli arg0 c4_i32
  let c0_i32 : BitVec 32 := 0#32
  let v1 : BitVec 32 := Scalar.addi v0 c0_i32
  let v2 : Index := Scalar.indexCast v1
  ![v2.toNat]
def k0_off2 (v3 : BitVec 32) : Fin 3 → Nat :=
  let v4 : Index := Scalar.indexCast v3
  let c0 : Index := 0#32
  let c0_0 : Index := 0#32
  ![v4.toNat, 0, 0]

def k0_chk1 (v3 : BitVec 32) : Prop :=
  (∀ a, (k0_off2 v3) a + S1x64x64.size a ≤ S32x64x64.size a)
instance k0_chk1.dec : ∀ (v3 : BitVec 32), Decidable (k0_chk1 v3) := fun v3 => decidable_of_iff' _ (Iff.of_eq (k0_chk1.eq_1 v3))
theorem k0_off2_inb : ∀ (v3 : BitVec 32) (k0_hw1 : k0_chk1 v3), ∀ a, (k0_off2 v3) a + S1x64x64.size a ≤ S32x64x64.size a := fun v3 k0_hw1 => k0_hw1

def k0_off3 (i : grid0.Coords) : Fin 1 → Nat :=
  let arg0 : BitVec 32 := BitVec.ofNat 32 (i 0).val
  let c4_i32_7 : BitVec 32 := 4#32
  let v14 : BitVec 32 := Scalar.muli arg0 c4_i32_7
  let c1_i32 : BitVec 32 := 1#32
  let v15 : BitVec 32 := Scalar.addi v14 c1_i32
  let v16 : Index := Scalar.indexCast v15
  ![v16.toNat]
def k0_off4 (v17 : BitVec 32) : Fin 3 → Nat :=
  let v18 : Index := Scalar.indexCast v17
  let c0_8 : Index := 0#32
  let c0_9 : Index := 0#32
  ![v18.toNat, 0, 0]

def k0_chk2 (v17 : BitVec 32) : Prop :=
  (∀ a, (k0_off4 v17) a + S1x64x64.size a ≤ S32x64x64.size a)
instance k0_chk2.dec : ∀ (v17 : BitVec 32), Decidable (k0_chk2 v17) := fun v17 => decidable_of_iff' _ (Iff.of_eq (k0_chk2.eq_1 v17))
theorem k0_off4_inb : ∀ (v17 : BitVec 32) (k0_hw2 : k0_chk2 v17), ∀ a, (k0_off4 v17) a + S1x64x64.size a ≤ S32x64x64.size a := fun v17 k0_hw2 => k0_hw2

def k0_off5 (i : grid0.Coords) : Fin 1 → Nat :=
  let arg0 : BitVec 32 := BitVec.ofNat 32 (i 0).val
  let c4_i32_16 : BitVec 32 := 4#32
  let v28 : BitVec 32 := Scalar.muli arg0 c4_i32_16
  let c2_i32 : BitVec 32 := 2#32
  let v29 : BitVec 32 := Scalar.addi v28 c2_i32
  let v30 : Index := Scalar.indexCast v29
  ![v30.toNat]
def k0_off6 (v31 : BitVec 32) : Fin 3 → Nat :=
  let v32 : Index := Scalar.indexCast v31
  let c0_17 : Index := 0#32
  let c0_18 : Index := 0#32
  ![v32.toNat, 0, 0]

def k0_chk3 (v31 : BitVec 32) : Prop :=
  (∀ a, (k0_off6 v31) a + S1x64x64.size a ≤ S32x64x64.size a)
instance k0_chk3.dec : ∀ (v31 : BitVec 32), Decidable (k0_chk3 v31) := fun v31 => decidable_of_iff' _ (Iff.of_eq (k0_chk3.eq_1 v31))
theorem k0_off6_inb : ∀ (v31 : BitVec 32) (k0_hw3 : k0_chk3 v31), ∀ a, (k0_off6 v31) a + S1x64x64.size a ≤ S32x64x64.size a := fun v31 k0_hw3 => k0_hw3

def k0_off7 (i : grid0.Coords) : Fin 1 → Nat :=
  let arg0 : BitVec 32 := BitVec.ofNat 32 (i 0).val
  let c4_i32_25 : BitVec 32 := 4#32
  let v42 : BitVec 32 := Scalar.muli arg0 c4_i32_25
  let c3_i32 : BitVec 32 := 3#32
  let v43 : BitVec 32 := Scalar.addi v42 c3_i32
  let v44 : Index := Scalar.indexCast v43
  ![v44.toNat]
def k0_off8 (v45 : BitVec 32) : Fin 3 → Nat :=
  let v46 : Index := Scalar.indexCast v45
  let c0_26 : Index := 0#32
  let c0_27 : Index := 0#32
  ![v46.toNat, 0, 0]

def k0_chk4 (v45 : BitVec 32) : Prop :=
  (∀ a, (k0_off8 v45) a + S1x64x64.size a ≤ S32x64x64.size a)
instance k0_chk4.dec : ∀ (v45 : BitVec 32), Decidable (k0_chk4 v45) := fun v45 => decidable_of_iff' _ (Iff.of_eq (k0_chk4.eq_1 v45))
theorem k0_off8_inb : ∀ (v45 : BitVec 32) (k0_hw4 : k0_chk4 v45), ∀ a, (k0_off8 v45) a + S1x64x64.size a ≤ S32x64x64.size a := fun v45 k0_hw4 => k0_hw4

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S4x64x8192 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S32x64x64 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S4x64x8192 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  bcast_S_S128 : S_.BroadcastsInDim S128 (![] : Fin 0 → Fin S128.rank)
  transposes_S32x64x64_S32x64x64_0_2_1 : S32x64x64.Transposes [0, 2, 1] S32x64x64
  bitsLt_bf16_f32 : FTy.bits .bf16 < FTy.bits .f32
  numel1_S1 : S1.numel = 1
  h_S1x64x64 : 0 < S1x64x64.numel
  shapeCasts_S1x64x64_S64x64 : S1x64x64.ShapeCasts S64x64
  inb_S4x64x8192_S1x64x8192_0_0_0 : ∀ a, (![0, 0, 0] : Fin 3 → Nat) a + S1x64x8192.size a ≤ S4x64x8192.size a
  h_S1x64x8192 : 0 < S1x64x8192.numel
  shapeCasts_S1x64x8192_S64x8192 : S1x64x8192.ShapeCasts S64x8192
  shapeCasts_S64x8192_S1x64x8192 : S64x8192.ShapeCasts S1x64x8192
  inb_S4x64x8192_S1x64x8192_1_0_0 : ∀ a, (![1, 0, 0] : Fin 3 → Nat) a + S1x64x8192.size a ≤ S4x64x8192.size a
  inb_S4x64x8192_S1x64x8192_2_0_0 : ∀ a, (![2, 0, 0] : Fin 3 → Nat) a + S1x64x8192.size a ≤ S4x64x8192.size a
  inb_S4x64x8192_S1x64x8192_3_0_0 : ∀ a, (![3, 0, 0] : Fin 3 → Nat) a + S1x64x8192.size a ≤ S4x64x8192.size a
  dot_S64x64_S64x8192_S64x8192_1_0_0_1_n_n_wf : DotDims.WF S64x64 S64x8192 S64x8192 [1] [0] [0] [1] [] []
  hrank0 : 0 < grid0.rank
  k0_off1_inb : ∀ i : grid0.Coords, ∀ a, (k0_off1 i) a + S1.size a ≤ S128.size a
  k0_off3_inb : ∀ i : grid0.Coords, ∀ a, (k0_off3 i) a + S1.size a ≤ S128.size a
  k0_off5_inb : ∀ i : grid0.Coords, ∀ a, (k0_off5 i) a + S1.size a ≤ S128.size a
  k0_off7_inb : ∀ i : grid0.Coords, ∀ a, (k0_off7 i) a + S1.size a ≤ S128.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4x64x8192.size a ≤ S128x64x8192.size a
  hwx0_0 : ∀ i : grid0.Coords, EltTy.bits .f32 = 32 ∨ (Rect.block (s := S128x64x8192) S4x64x8192.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S32x64x64.size a ≤ S32x64x64.size a
  hwx0_1 : ∀ i : grid0.Coords, EltTy.bits .bf16 = 32 ∨ (Rect.block (s := S32x64x64) S32x64x64.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4x64x8192.size a ≤ S128x64x8192.size a
  hwx0_2 : ∀ i : grid0.Coords, EltTy.bits .f32 = 32 ∨ (Rect.block (s := S128x64x8192) S4x64x8192.size (cc0_transform_2 i) (hinb0_2 i)).WholeWords (EltTy.packing .f32)

variable [Facts₀]

def dot_S64x64_S64x8192_S64x8192_1_0_0_1_n_n : DotDims S64x64 S64x8192 S64x8192 where
  lhsContracting := [1]
  rhsContracting := [0]
  lhsNonContracting := [0]
  rhsNonContracting := [1]
  lhsBatch := []
  rhsBatch := []
  wf := dot_S64x64_S64x8192_S64x8192_1_0_0_1_n_n_wf

abbrev spec0_0 : Pipeline.WinSpec sig grid0.rank :=
  Pipeline.WinSpec.ofSpec (Memref.whole main_arg0) S4x64x8192.size reads0_0 false false 2 stage0_0 sem0_0 nbuf0_0 hstage0_0

abbrev spec0_1 : Pipeline.WinSpec sig grid0.rank :=
  Pipeline.WinSpec.ofSpec (Memref.whole main_v2) S32x64x64.size reads0_1 false true 1 stage0_1 sem0_1 nbuf0_1 hstage0_1

abbrev spec0_2 : Pipeline.WinSpec sig grid0.rank :=
  Pipeline.WinSpec.ofSpec (Memref.whole main_v3) S4x64x8192.size reads0_2 true false 2 stage0_2 sem0_2 nbuf0_2 hstage0_2

abbrev spec0 : Fin 3 → Pipeline.WinSpec sig grid0.rank := fun | 0 => spec0_0 | 1 => spec0_1 | 2 => spec0_2 | ⟨_ + 3, h⟩ => absurd h (Nat.not_lt.2 (Nat.le_add_left _ _))
theorem hcount0 : ∀ w, grid0.bufCount (spec0 w).reads (spec0 w).sync = (spec0 w).nbuf := fun | 0 => nbuf0_0 | 1 => nbuf0_1 | 2 => nbuf0_2 | ⟨_ + 3, h⟩ => absurd h (Nat.not_lt.2 (Nat.le_add_left _ _))
abbrev ix0 (pf : pre0.Contents (Elt F)) : (w : Fin 3) → grid0.Coords → Fin (spec0 w).shape.rank → Nat := fun | 0 => cc0_transform_0 | 1 => cc0_transform_1 | 2 => cc0_transform_2 | ⟨_ + 3, h⟩ => absurd h (Nat.not_lt.2 (Nat.le_add_left _ _))
theorem hreads0 : ∀ (pf : pre0.Contents (Elt F)) w (i i' : grid0.Coords), (∀ a, (spec0 w).reads a = true → i a = i' a) → ix0 pf w i = ix0 pf w i' := fun pf => fun | 0 => hreads0_0 | 1 => hreads0_1 | 2 => hreads0_2 | ⟨_ + 3, h⟩ => absurd h (Nat.not_lt.2 (Nat.le_add_left _ _))
def ok0 (_ : pre0.Contents (Elt F)) : Prop :=
  True
instance (pf : pre0.Contents (Elt F)) : Decidable (ok0 pf) := decidable_of_iff' _ (Iff.of_eq (ok0.eq_1 pf))
theorem hinb0 : ∀ (pf : pre0.Contents (Elt F)), ok0 pf → ∀ w (i : grid0.Coords) a, (ix0 pf w i a + 1) * (spec0 w).size a ≤ (spec0 w).shape.size a :=
  fun _ _ => fun | 0 => hinb0_0 | 1 => hinb0_1 | 2 => hinb0_2 | ⟨_ + 3, h⟩ => absurd h (Nat.not_lt.2 (Nat.le_add_left _ _))
theorem hwx0 : ∀ (pf : pre0.Contents (Elt F)) (hok : ok0 pf) w (i : grid0.Coords), (spec0 w).elt.bits = 32 ∨ (Rect.block (spec0 w).size (ix0 pf w i) (hinb0 pf hok w i)).WholeWords (spec0 w).elt.packing :=
  fun _ _ => fun | 0 => hwx0_0 | 1 => hwx0_1 | 2 => hwx0_2 | ⟨_ + 3, h⟩ => absurd h (Nat.not_lt.2 (Nat.le_add_left _ _))

class Facts : Prop extends Facts₀ where
  harr0 : ∀ w, (spec0 w).arr.IsWhole

variable [Facts]
-- ==== ReferenceIdeal.lean ====
abbrev S128x64x8192 : Shape := ⟨3, ![128, 64, 8192]⟩
abbrev S32x64x64 : Shape := ⟨3, ![32, 64, 64]⟩
abbrev S128 : Shape := ⟨1, ![128]⟩
abbrev S_ : Shape := ⟨0, ![]⟩
abbrev S128x1 : Shape := ⟨2, ![128, 1]⟩
abbrev S128x64x64 : Shape := ⟨3, ![128, 64, 64]⟩

abbrev nBuf : Space → Nat
  | .hbm => 13
  | .vmem => 0
  | .smem => 0
  | _ => 0

abbrev bufTy : (tb : Table) → Fin (tcTables nBuf tb) → BufTy
  | .hbm, ⟨0, _⟩ => ⟨S128x64x8192, .f32⟩
  | .hbm, ⟨1, _⟩ => ⟨S32x64x64, .f32⟩
  | .hbm, ⟨2, _⟩ => ⟨S128, .i32⟩
  | .hbm, ⟨3, _⟩ => ⟨S_, .i32⟩
  | .hbm, ⟨4, _⟩ => ⟨S128, .i32⟩
  | .hbm, ⟨5, _⟩ => ⟨S128, .i1⟩
  | .hbm, ⟨6, _⟩ => ⟨S_, .i32⟩
  | .hbm, ⟨7, _⟩ => ⟨S128, .i32⟩
  | .hbm, ⟨8, _⟩ => ⟨S128, .i32⟩
  | .hbm, ⟨9, _⟩ => ⟨S128, .i32⟩
  | .hbm, ⟨10, _⟩ => ⟨S128x1, .i32⟩
  | .hbm, ⟨11, _⟩ => ⟨S128x64x64, .f32⟩
  | .hbm, ⟨12, _⟩ => ⟨S128x64x8192, .f32⟩
  | _, _ => ⟨S128x64x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_v0 : Ref sig .tc := ⟨.hbm, 4, rfl⟩
abbrev main_v1 : Ref sig .tc := ⟨.hbm, 5, rfl⟩
abbrev main_c_0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩

abbrev nD : Nat := 1
abbrev τ : Topo := Topo.v7x

variable {F : FTy → Type} [FloatOps F]

class Facts₀ : Prop where
  bcast_S_S128 : S_.BroadcastsInDim S128 (![] : Fin 0 → Fin S128.rank)
  bcast_S128_S128x1_0 : S128.BroadcastsInDim S128x1 (![0] : Fin 1 → Fin S128x1.rank)
  gather_S32x64x64_S128x1_S128x64x64_12_0_n_n_0_1_16464_wf : GatherDims.WF S32x64x64 S128x1 S128x64x64 [1, 2] [0] [] [0] [] 1 ![1, 64, 64]
  dot_S128x64x64_S128x64x8192_S128x64x8192_1_1_2_2_0_0_wf : DotDims.WF S128x64x64 S128x64x8192 S128x64x8192 [1] [1] [2] [2] [0] [0]

variable [Facts₀]

def gather_S32x64x64_S128x1_S128x64x64_12_0_n_n_0_1_16464 : GatherDims S32x64x64 S128x1 S128x64x64 where
  offsetDims := [1, 2]
  collapsedSliceDims := [0]
  operandBatchingDims := []
  startIndicesBatchingDims := []
  startIndexMap := [0]
  indexVectorDim := 1
  sliceSizes := ![1, 64, 64]
  wf := gather_S32x64x64_S128x1_S128x64x64_12_0_n_n_0_1_16464_wf
def dot_S128x64x64_S128x64x8192_S128x64x8192_1_1_2_2_0_0 : DotDims S128x64x64 S128x64x8192 S128x64x8192 where
  lhsContracting := [1]
  rhsContracting := [1]
  lhsNonContracting := [2]
  rhsNonContracting := [2]
  lhsBatch := [0]
  rhsBatch := [0]
  wf := dot_S128x64x64_S128x64x8192_S128x64x8192_1_1_2_2_0_0_wf

class Facts : Prop extends Facts₀ where

variable [Facts]
-- ==== Proof.Words.lean ====
/-
  Words. A routing id is a 32-bit word; the precondition says it lies in [0, 32) as a SIGNED integer. For such a
  word three things the two programs do to it are the identity:
    * the kernel's clip  min(31, max(0, w))                       (signed minimum and maximum),
    * the reference's NumPy-style wrap  if w < 0 then w + 32 else w,
    * the gather's clamp of the signed value into [0, 31],
  and the word read as a natural number is below 32, which is what the kernel's dynamic first-axis index needs.
-/
import Idealize.ShloMosaic.PureOps
import Idealize.ShloMosaic.Lib.StableHlo.Predicate

namespace Cert.Words

open Idealize.ShloMosaic Idealize.ShloMosaic.StableHlo.Predicate

/-- A word in [0, 32) signed is below 32 unsigned: the sign bit is clear (0 ≤ w), so both readings agree. -/
theorem toNat_lt (w : BitVec 32) (h0 : IntOp.cmpi .sge w (0#32) = 1#1) (h32 : IntOp.cmpi .slt w (32#32) = 1#1) :
    w.toNat < 32 := by
  unfold IntOp.cmpi at h0 h32
  rw [ofBool_eq_one_iff] at h0 h32
  simp only [BitVec.slt, BitVec.sle, decide_eq_true_eq] at h0 h32
  have h32' := w.isLt
  unfold BitVec.toInt at h0 h32
  split at h32 <;> simp at h0 h32 <;> omega

/-- Signed and unsigned readings of a word below 32 agree. -/
theorem toInt_eq (w : BitVec 32) (hw : w.toNat < 32) : w.toInt = w.toNat :=
  toInt_eq_toNat_of_lt (by omega)

/-- The gather's clamp of the signed value into [0, 31] leaves a word below 32 alone. -/
theorem clampIdx_eq (w : BitVec 32) (hw : w.toNat < 32) : min w.toInt.toNat (32 - 1) = w.toNat := by
  rw [toInt_eq w hw]; simp only [Int.toNat_natCast]; omega

/-- The kernel's clip min(31, max(0, w)) leaves a word below 32 alone. -/
theorem clip_eq (w : BitVec 32) (hw : w.toNat < 32) : IntOp.minsi (31#32) (IntOp.maxsi (0#32) w) = w := by
  have hti : w.toInt = w.toNat := toInt_eq w hw
  have h0 : (0#32 : BitVec 32).toInt = 0 := by decide
  have h31 : (31#32 : BitVec 32).toInt = 31 := by decide
  have hmax : IntOp.maxsi (0#32) w = w := by
    unfold IntOp.maxsi
    split <;> rename_i hc <;> simp only [BitVec.slt, hti, h0, decide_eq_true_eq] at hc
    · omega
    · rfl
  rw [hmax]
  unfold IntOp.minsi
  split <;> rename_i hc <;> simp only [BitVec.slt, hti, h31, decide_eq_true_eq] at hc
  · omega
  · rfl

/-- The reference's wrap of a negative index (w < 0 ↦ w + 32) does nothing to a word below 32: it is not negative. -/
theorem wrap_eq (w : BitVec 32) (hw : w.toNat < 32) :
    Scalar.select (IntOp.cmpi .slt w (0#32)) (IntOp.addi w (32#32)) w = w := by
  have hti : w.toInt = w.toNat := toInt_eq w hw
  have h0 : (0#32 : BitVec 32).toInt = 0 := by decide
  have hc : IntOp.cmpi .slt w (0#32) ≠ 1#1 := by
    unfold IntOp.cmpi
    rw [Ne, ofBool_eq_one_iff]
    simp only [BitVec.slt, hti, h0, decide_eq_true_eq]
    omega
  unfold Scalar.select
  exact if_neg hc

end Cert.Words
-- ==== Proof.PreIds.lean ====
/-
  The precondition, read back. The printed predicate ends in the conjunction of three `jnp.all`s; the third says of
  every routing id that 0 ≤ id and id < 32 as signed words. An `all` that came out 1 met only 1s, so each id word
  is in [0, 32), hence below 32 as a natural number. The two finiteness conjuncts are not opened: nothing in this
  certificate needs them (the two programs compute the same sum of the same products, in the same order).
-/
import proofs.«409785_j68839735820624_3_alg».proof.Pre_finite_inputs
import proofs.«409785_j68839735820624_3_alg».proof.Proof.Words
import Idealize.ShloMosaic.Lib.ReduceAll
import Idealize.ShloMosaic.Lib.ValueIdx

namespace Cert.PreIds

open Idealize.ShloMosaic Cert.Pre_finite_inputs

variable {F : FTy → Type} [FloatOps F] [Cert.Pre_finite_inputs.Facts]

/-- The scalar shape has one index. -/
instance : Subsingleton S_.Idx := ⟨fun a b => funext fun d => d.elim0⟩

/-- Under the precondition every routing id, read as a natural number, is below 32. -/
theorem ids_lt (x : FVec F S128x64x8192 .f32) (w : FVec F S32x64x64 .f32) (ids : IVec S128 32)
    (h : fn (F := F) x w ids = fun _ => 1#1) (k : S128.Idx) : (ids k).toNat < 32 := by
  have e := congrFun h ValueIdx.ix0
  dsimp only [fn] at e
  have e14 := (IntOp.andi_eq_one.1 e).2
  have ek := Host.reduce_andi_all _ _ _ _ _ e14 k
  have hk := IntOp.andi_eq_one.1 ek
  exact Cert.Words.toNat_lt (ids k) hk.1 hk.2

end Cert.PreIds
-- ==== Proof.LibTRef.lean ====
/-
  A typed reference's two transports — contents at the value's type to contents of the buffer and back — cancel.
-/
import Idealize.ShloMosaic.Lib.StableHlo

namespace Idealize.ShloMosaic.StableHlo.TRef

variable {sig : RefSig} {Val : EltTy → Type} {T : BufTy}

/-- Reading back through a typed reference what was put through it is the identity: both are the transport along
    the one equation `ref.ty = T`, in opposite directions. -/
theorem ofBuf_toBuf (x : TRef sig T) (v : T.Contents Val) : x.ofBuf (x.toBuf v) = v := by
  unfold TRef.ofBuf TRef.toBuf
  simp

/-- The other way round. -/
theorem toBuf_ofBuf (x : TRef sig T) (v : x.ref.ty.Contents Val) : x.toBuf (x.ofBuf v) = v := by
  unfold TRef.ofBuf TRef.toBuf
  simp

end Idealize.ShloMosaic.StableHlo.TRef
-- ==== Proof.RouteKernel.lean ====
/-
  The routing table the kernel prefetches, and the side conditions its body assumes. The table is computed before
  the launch as the clip min(31, max(0, id)) of the routing ids; for ids in [0, 32) it is the ids themselves. At
  grid point t the body reads the four words at positions 4t, 4t+1, 4t+2, 4t+3 and uses each as the first-axis
  index of a [1 × 64 × 64] slice of the [32 × 64 × 64] table of matrices: the slice fits because the word is below 32.
  Everything here holds at any float instance: it is about integer words only.
-/
import proofs.«409785_j68839735820624_3_alg».proof.Proof.Gen.Kernel.Frame.Runs
import proofs.«409785_j68839735820624_3_alg».proof.Proof.LibTRef
import proofs.«409785_j68839735820624_3_alg».proof.Proof.Words
import Idealize.ShloMosaic.Lib.StableHlo.Run
import Idealize.ShloMosaic.Lib.ValueIdx

set_option maxRecDepth 16384

noncomputable section

namespace Cert.Kernel.Route

open Cert.Kernel Cert.Kernel.Gen
open Idealize.ShloMosaic Idealize.ShloMosaic.TcCoe Idealize.ShloMosaic.Tactic Idealize.SL.Sem Idealize.ShloMosaic.StableHlo
open Idealize.ShloMosaic.ValueIdx

variable {F : FTy → Type} [FloatOps F]
variable (m : (ℓ : Loc nD τ sig) → Buf (Elt F) ℓ)

/-- The routing ids as launched (there is one device). -/
abbrev ids : S128.Idx → BitVec 32 := m (((0 : Dev nD) : Thread nD τ).loc main_arg2)

/-- The prefetched table is the clip of the ids: the host operations before the launch, read back. -/
theorem tbl_eq : (tbl m 0 : S128.Idx → BitVec 32)
    = minsi (broadcastInDim S128 ![] bcast_S_S128 (constantI S_ 32 31#32))
        (maxsi (broadcastInDim S128 ![] bcast_S_S128 (constantI S_ 32 0#32)) (ids m)) := by
  unfold tbl
  show V m 0 main_v0 = _
  dsimp only [V]
  simp only [hostOps0, hostOps0_1, hostOps0_2, List.flatten_cons, List.flatten_nil, List.append_nil, List.cons_append, List.nil_append]
  after_results
  simp only [TRef.ofBuf_toBuf]
  rfl

/-- Where every id is in [0, 32) the table holds the ids. -/
theorem tbl_apply (hids : ∀ k, (ids m k).toNat < 32) (k : S128.Idx) : (tbl m 0 : S128.Idx → BitVec 32) k = ids m k := by
  rw [tbl_eq]
  exact Cert.Words.clip_eq _ (hids k)

/-- A word read through the table's whole buffer at a one-word rectangle is the table at the rectangle's offset. -/
theorem word (c : Dev nD) (xt : TbBuf0 (F := F) c tbM0_0) (off : Fin 1 → Nat) (inb : ∀ a, off a + S1.size a ≤ S128.size a)
    (h1 : 0 < S1.numel) (k : Fin 128) (hoff : off 0 = k.val) :
    tbM0_0.view.readAt (Elt F) (Rect.unit (s := S128) off S1.size inb).toLoadRect xt (Shape.Idx.first h1)
      = (xt : S128.Idx → BitVec 32) (ix1 k) := by
  rw [View.readAt_apply]
  show (xt : S128.Idx → BitVec 32) _ = _
  refine congrArg (xt : S128.Idx → BitVec 32) (funext fun a => Fin.ext ?_)
  match a with
  | ⟨0, _⟩ =>
    show off 0 + 1 * (Shape.Idx.first h1 (0 : Fin 1)).val = k.val
    have : (Shape.Idx.first h1 (0 : Fin 1)).val = 0 := by
      have := (Shape.Idx.first h1 (0 : Fin 1)).isLt
      have e : S1.size (0 : Fin 1) = 1 := by decide
      omega
    rw [this, hoff]; omega

/-- The four positions the body reads at grid point t, decided over the 32 points. -/
theorem offs : ∀ t : Fin grid0.N, k0_off1 (grid0.coords t) 0 = 4 * t.val ∧ k0_off3 (grid0.coords t) 0 = 4 * t.val + 1
    ∧ k0_off5 (grid0.coords t) 0 = 4 * t.val + 2 ∧ k0_off7 (grid0.coords t) 0 = 4 * t.val + 3 := by
  decide +kernel

/-- A word below 32 names a matrix of the table: the [1 × 64 × 64] slice starting at it fits in [32 × 64 × 64]. -/
theorem slice_fits (w : BitVec 32) (hw : w.toNat < 32) :
    ∀ a, (![(Scalar.indexCast w).toNat, 0, 0] : Fin 3 → Nat) a + S1x64x64.size a ≤ S32x64x64.size a := by
  intro a
  have : (Scalar.indexCast w).toNat = w.toNat := rfl
  fin_cases a <;> simp [this, S1x64x64, S32x64x64] <;> omega

/-- The word at table position k, where every id is in range, is below 32. -/
theorem tbl_lt (hids : ∀ k, (ids m k).toNat < 32) (k : S128.Idx) : ((tbl m 0 : S128.Idx → BitVec 32) k).toNat < 32 := by
  rw [tbl_apply m hids k]; exact hids k

/-- The side conditions the body assumes hold at every grid point when every id is in [0, 32): each of the four words
    it reads is a word of the table, hence an id, hence names a matrix of the table. -/
theorem hyps_of_ids (hids : ∀ k, (ids m k).toNat < 32) (hO : Ok m) : Hyps m hO := by
  refine Hyps.of (fun c t => ?_) (fun c t => ?_) (fun c t => ?_) (fun c t => ?_)
  · obtain ⟨e1, e3, e5, e7⟩ := offs t
    show k0_chk1 _
    rw [word c (tbl m 0) _ _ _ ⟨4 * t.val, by have := t.isLt; have : grid0.N = 32 := N_0; omega⟩ e1]
    exact slice_fits _ (tbl_lt m hids _)
  · obtain ⟨e1, e3, e5, e7⟩ := offs t
    show k0_chk2 _
    rw [word c (tbl m 0) _ _ _ ⟨4 * t.val + 1, by have := t.isLt; have : grid0.N = 32 := N_0; omega⟩ e3]
    exact slice_fits _ (tbl_lt m hids _)
  · obtain ⟨e1, e3, e5, e7⟩ := offs t
    show k0_chk3 _
    rw [word c (tbl m 0) _ _ _ ⟨4 * t.val + 2, by have := t.isLt; have : grid0.N = 32 := N_0; omega⟩ e5]
    exact slice_fits _ (tbl_lt m hids _)
  · obtain ⟨e1, e3, e5, e7⟩ := offs t
    show k0_chk4 _
    rw [word c (tbl m 0) _ _ _ ⟨4 * t.val + 3, by have := t.isLt; have : grid0.N = 32 := N_0; omega⟩ e7]
    exact slice_fits _ (tbl_lt m hids _)

end Cert.Kernel.Route

end
-- ==== Proof.RouteKernelIdeal.lean ====
/-
  The routing table the kernel prefetches, and the side conditions its body assumes. The table is computed before
  the launch as the clip min(31, max(0, id)) of the routing ids; for ids in [0, 32) it is the ids themselves. At
  grid point t the body reads the four words at positions 4t, 4t+1, 4t+2, 4t+3 and uses each as the first-axis
  index of a [1 × 64 × 64] slice of the [32 × 64 × 64] table of matrices: the slice fits because the word is below 32.
  Everything here holds at any float instance: it is about integer words only.
-/
import proofs.«409785_j68839735820624_3_alg».proof.Proof.Gen.KernelIdeal.Frame.Runs
import proofs.«409785_j68839735820624_3_alg».proof.Proof.LibTRef
import proofs.«409785_j68839735820624_3_alg».proof.Proof.Words
import Idealize.ShloMosaic.Lib.StableHlo.Run
import Idealize.ShloMosaic.Lib.ValueIdx

set_option maxRecDepth 16384

noncomputable section

namespace Cert.KernelIdeal.Route

open Cert.KernelIdeal Cert.KernelIdeal.Gen
open Idealize.ShloMosaic Idealize.ShloMosaic.TcCoe Idealize.ShloMosaic.Tactic Idealize.SL.Sem Idealize.ShloMosaic.StableHlo
open Idealize.ShloMosaic.ValueIdx

variable {F : FTy → Type} [FloatOps F]
variable (m : (ℓ : Loc nD τ sig) → Buf (Elt F) ℓ)

/-- The routing ids as launched (there is one device). -/
abbrev ids : S128.Idx → BitVec 32 := m (((0 : Dev nD) : Thread nD τ).loc main_arg2)

/-- The prefetched table is the clip of the ids: the host operations before the launch, read back. -/
theorem tbl_eq : (tbl m 0 : S128.Idx → BitVec 32)
    = minsi (broadcastInDim S128 ![] bcast_S_S128 (constantI S_ 32 31#32))
        (maxsi (broadcastInDim S128 ![] bcast_S_S128 (constantI S_ 32 0#32)) (ids m)) := by
  unfold tbl
  show V m 0 main_v0 = _
  dsimp only [V]
  simp only [hostOps0, hostOps0_1, hostOps0_2, List.flatten_cons, List.flatten_nil, List.append_nil, List.cons_append, List.nil_append]
  after_results
  simp only [TRef.ofBuf_toBuf]
  rfl

/-- Where every id is in [0, 32) the table holds the ids. -/
theorem tbl_apply (hids : ∀ k, (ids m k).toNat < 32) (k : S128.Idx) : (tbl m 0 : S128.Idx → BitVec 32) k = ids m k := by
  rw [tbl_eq]
  exact Cert.Words.clip_eq _ (hids k)

/-- A word read through the table's whole buffer at a one-word rectangle is the table at the rectangle's offset. -/
theorem word (c : Dev nD) (xt : TbBuf0 (F := F) c tbM0_0) (off : Fin 1 → Nat) (inb : ∀ a, off a + S1.size a ≤ S128.size a)
    (h1 : 0 < S1.numel) (k : Fin 128) (hoff : off 0 = k.val) :
    tbM0_0.view.readAt (Elt F) (Rect.unit (s := S128) off S1.size inb).toLoadRect xt (Shape.Idx.first h1)
      = (xt : S128.Idx → BitVec 32) (ix1 k) := by
  rw [View.readAt_apply]
  show (xt : S128.Idx → BitVec 32) _ = _
  refine congrArg (xt : S128.Idx → BitVec 32) (funext fun a => Fin.ext ?_)
  match a with
  | ⟨0, _⟩ =>
    show off 0 + 1 * (Shape.Idx.first h1 (0 : Fin 1)).val = k.val
    have : (Shape.Idx.first h1 (0 : Fin 1)).val = 0 := by
      have := (Shape.Idx.first h1 (0 : Fin 1)).isLt
      have e : S1.size (0 : Fin 1) = 1 := by decide
      omega
    rw [this, hoff]; omega

/-- The four positions the body reads at grid point t, decided over the 32 points. -/
theorem offs : ∀ t : Fin grid0.N, k0_off1 (grid0.coords t) 0 = 4 * t.val ∧ k0_off3 (grid0.coords t) 0 = 4 * t.val + 1
    ∧ k0_off5 (grid0.coords t) 0 = 4 * t.val + 2 ∧ k0_off7 (grid0.coords t) 0 = 4 * t.val + 3 := by
  decide +kernel

/-- A word below 32 names a matrix of the table: the [1 × 64 × 64] slice starting at it fits in [32 × 64 × 64]. -/
theorem slice_fits (w : BitVec 32) (hw : w.toNat < 32) :
    ∀ a, (![(Scalar.indexCast w).toNat, 0, 0] : Fin 3 → Nat) a + S1x64x64.size a ≤ S32x64x64.size a := by
  intro a
  have : (Scalar.indexCast w).toNat = w.toNat := rfl
  fin_cases a <;> simp [this, S1x64x64, S32x64x64] <;> omega

/-- The word at table position k, where every id is in range, is below 32. -/
theorem tbl_lt (hids : ∀ k, (ids m k).toNat < 32) (k : S128.Idx) : ((tbl m 0 : S128.Idx → BitVec 32) k).toNat < 32 := by
  rw [tbl_apply m hids k]; exact hids k

/-- The side conditions the body assumes hold at every grid point when every id is in [0, 32): each of the four words
    it reads is a word of the table, hence an id, hence names a matrix of the table. -/
theorem hyps_of_ids (hids : ∀ k, (ids m k).toNat < 32) (hO : Ok m) : Hyps m hO := by
  refine Hyps.of (fun c t => ?_) (fun c t => ?_) (fun c t => ?_) (fun c t => ?_)
  · obtain ⟨e1, e3, e5, e7⟩ := offs t
    show k0_chk1 _
    rw [word c (tbl m 0) _ _ _ ⟨4 * t.val, by have := t.isLt; have : grid0.N = 32 := N_0; omega⟩ e1]
    exact slice_fits _ (tbl_lt m hids _)
  · obtain ⟨e1, e3, e5, e7⟩ := offs t
    show k0_chk2 _
    rw [word c (tbl m 0) _ _ _ ⟨4 * t.val + 1, by have := t.isLt; have : grid0.N = 32 := N_0; omega⟩ e3]
    exact slice_fits _ (tbl_lt m hids _)
  · obtain ⟨e1, e3, e5, e7⟩ := offs t
    show k0_chk3 _
    rw [word c (tbl m 0) _ _ _ ⟨4 * t.val + 2, by have := t.isLt; have : grid0.N = 32 := N_0; omega⟩ e5]
    exact slice_fits _ (tbl_lt m hids _)
  · obtain ⟨e1, e3, e5, e7⟩ := offs t
    show k0_chk4 _
    rw [word c (tbl m 0) _ _ _ ⟨4 * t.val + 3, by have := t.isLt; have : grid0.N = 32 := N_0; omega⟩ e7]
    exact slice_fits _ (tbl_lt m hids _)

end Cert.KernelIdeal.Route

end
-- ==== Proof.PayloadKernelIdeal.lean ====
/-
  What one store of the body holds, entry by entry, over the extended reals. Each of the four stores writes, for one
  sample of the block, the product of a [64 × 64] matrix W (a [1 × 64 × 64] slice of the table, its unit axis
  dropped) with the sample's [64 × 8192] slab X (likewise a [1 × 64 × 8192] slice), accumulated from zero:

      P[0, d, t] = Σ_c  W[0, d, c] · X[0, c, t].

  The change of float format on X is the identity at this instance, and the zero accumulator adds nothing. The four
  payloads are one term under four names.
-/
import proofs.«409785_j68839735820624_3_alg».proof.Proof.Gen.KernelIdeal.Skeleton
import Idealize.ShloMosaic.Lib.Pipeline.Value
import Idealize.ShloMosaic.Lib.ValueIdx
import Idealize.ShloMosaic.PureOps.Ideal.Laws

noncomputable section

namespace Cert.KernelIdeal.Payload

open Cert.KernelIdeal Cert.KernelIdeal.Gen
open Idealize.ShloMosaic Idealize.ShloMosaic.ValueIdx

/-- The contraction's dimension record: W's axis 1 against X's axis 0. -/
abbrev D := dot_S64x64_S64x8192_S64x8192_1_0_0_1_n_n

theorem lhs_0 (i : S64x8192.Idx) (q : D.contr.Idx) : (D.lhsIdx i q 0).val = (i 0).val := by
  unfold DotDims.lhsIdx
  rw [dif_neg (show ¬(0 : Fin S64x64.rank) ∈ D.lhsBatch by decide), dif_pos (show (0 : Fin S64x64.rank) ∈ D.lhsNonContracting by decide)]
  rfl
theorem lhs_1 (i : S64x8192.Idx) (q : D.contr.Idx) : (D.lhsIdx i q 1).val = (q ⟨0, by decide⟩).val :=
  D.lhsIdx_val_of_single rfl i q
theorem rhs_0 (i : S64x8192.Idx) (q : D.contr.Idx) : (D.rhsIdx i q 0).val = (q ⟨0, by decide⟩).val :=
  D.rhsIdx_val_of_single rfl i q
theorem rhs_1 (i : S64x8192.Idx) (q : D.contr.Idx) : (D.rhsIdx i q 1).val = (i 1).val := by
  unfold DotDims.rhsIdx
  rw [dif_neg (show ¬(1 : Fin S64x8192.rank) ∈ D.rhsBatch by decide), dif_pos (show (1 : Fin S64x8192.rank) ∈ D.rhsNonContracting by decide)]
  rfl

/-- The product into a zero accumulator, at entry (d, t): the sum over the channel c of W[d, c] · X[c, t]. -/
theorem matmul_at (l : FVec Ideal S64x64 .bf16) (r : FVec Ideal S64x8192 .bf16) (d : Fin 64) (t : Fin 8192) :
    FloatOps.matmul D none l r (constant S64x8192 .f32 0x00000000#32) (ix2 d t) = ∑ c : Fin 64, l (ix2 d c) * r (ix2 c t) := by
  rw [Ideal.matmul_constant_zero_apply, ← Equiv.sum_comp (contrEquiv1 D 64 rfl rfl).symm]
  refine Finset.sum_congr rfl fun k _ => ?_
  have hk := contrEquiv1_symm_val D 64 rfl rfl k
  have el : D.lhsIdx (ix2 d t) ((contrEquiv1 D 64 rfl rfl).symm k) = ix2 d k := funext fun a => Fin.ext (by
    match a with
    | ⟨0, _⟩ => exact lhs_0 _ _
    | ⟨1, _⟩ => exact (lhs_1 _ _).trans hk)
  have er : D.rhsIdx (ix2 d t) ((contrEquiv1 D 64 rfl rfl).symm k) = ix2 k t := funext fun a => Fin.ext (by
    match a with
    | ⟨0, _⟩ => exact (rhs_0 _ _).trans hk
    | ⟨1, _⟩ => exact rhs_1 _ _)
  rw [el, er]

/-- One store's payload at entry (0, d, t). -/
theorem pay_apply (v : Vec Ideal S1x64x64 .bf16) (x : Vec Ideal S1x64x8192 .f32) (d : Fin 64) (t : Fin 8192) :
    k0_pay3 (F := Ideal) v x (ix3 (0 : Fin 1) d t) = ∑ c : Fin 64, v (ix3 (0 : Fin 1) d c) * x (ix3 (0 : Fin 1) c t) := by
  unfold k0_pay3
  refine (shapeCast_addUnit_apply ![64, 8192] _ shapeCasts_S64x8192_S1x64x8192 (ix3 (0 : Fin 1) d t)).trans ?_
  have e : (fun a : Fin 2 => (ix3 (0 : Fin 1) d t : S1x64x8192.Idx) a.succ) = (ix2 d t : S64x8192.Idx) :=
    funext fun a => by match a with | ⟨0, _⟩ => rfl | ⟨1, _⟩ => rfl
  rw [e]
  refine (matmul_at _ _ d t).trans ?_
  refine Finset.sum_congr rfl fun c _ => ?_
  have e1 : shapeCast S64x64 v shapeCasts_S1x64x64_S64x64 (ix2 d c) = v (ix3 (0 : Fin 1) d c) := by
    refine (shapeCast_dropUnit_apply ![64, 64] v shapeCasts_S1x64x64_S64x64 (ix2 d c)).trans ?_
    refine congrArg v (funext fun a => ?_)
    match a with | ⟨0, _⟩ => rfl | ⟨1, _⟩ => rfl | ⟨2, _⟩ => rfl
  have e2 : (truncf (F := Ideal) .bf16 (shapeCast S64x8192 x shapeCasts_S1x64x8192_S64x8192) bitsLt_bf16_f32 (ix2 c t) : EReal)
      = (x (ix3 (0 : Fin 1) c t) : EReal) := by
    refine (truncf_apply (ψ := .bf16) (shapeCast S64x8192 x shapeCasts_S1x64x8192_S64x8192) bitsLt_bf16_f32 (ix2 c t)).trans ?_
    refine (shapeCast_dropUnit_apply ![64, 8192] x shapeCasts_S1x64x8192_S64x8192 (ix2 c t)).trans ?_
    refine congrArg x (funext fun a => ?_)
    match a with | ⟨0, _⟩ => rfl | ⟨1, _⟩ => rfl | ⟨2, _⟩ => rfl
  rw [e1, e2]

/-- The four stores' payloads are the same term. -/
theorem pay1_eq : @k0_pay1 = @k0_pay3 := rfl
theorem pay2_eq : @k0_pay2 = @k0_pay3 := rfl
theorem pay4_eq : @k0_pay4 = @k0_pay3 := rfl

end Cert.KernelIdeal.Payload

end
-- ==== Proof.OutBlockKernelIdeal.lean ====
/-
  What the body leaves in the output block at one grid point. The body writes four [1 × 64 × 8192] pieces that tile
  the [4 × 64 × 8192] block; piece j is the product of the matrix the j-th routing word names with sample j's slab of
  the input block. Read back through the block's index (j, d, t) the block is ONE function:

      out[j, d, t] = Σ_c  table[n j, d, c] · xblock[j, c, t],

  where n j is the j-th word read as a row of the table of matrices. The pieces tile the block, so every index is
  under exactly the piece of its sample.
-/
import proofs.«409785_j68839735820624_3_alg».proof.Proof.Gen.KernelIdeal.Frame
import proofs.«409785_j68839735820624_3_alg».proof.Proof.PayloadKernelIdeal
import Idealize.ShloMosaic.Lib.Pipeline.Value
import Idealize.ShloMosaic.Lib.ValueIdx
import Idealize.ShloMosaic.Lib.Tactic

set_option maxRecDepth 16384

noncomputable section

namespace Cert.KernelIdeal.OutBlock

open Cert.KernelIdeal Cert.KernelIdeal.Gen
open Idealize.ShloMosaic Idealize.ShloMosaic.TcCoe Idealize.ShloMosaic.Tactic Idealize.SL.Sem
open Idealize.ShloMosaic.ValueIdx

/-- The block as one function of its index: sample j against row `n j` of the table of matrices. -/
def blockOf (x0 : Vec Ideal S4x64x8192 .f32) (x1 : Vec Ideal S32x64x64 .bf16) (n : Fin 4 → Fin 32) : S4x64x8192.Idx → EReal :=
  fun y => ∑ c : Fin 64, (x1 (ix3 (n (y 0)) (y 1) c) : EReal) * (x0 (ix3 (y 0) c (y 2)) : EReal)

/-- A [1 × 64 × 64] slice of the table loaded at first-axis offset `n` reads the table's row `n`. -/
theorem ld_row (x1 : Vec Ideal S32x64x64 .bf16) (off : Fin 3 → Nat) (inb : ∀ a, off a + S1x64x64.size a ≤ S32x64x64.size a)
    (n : Fin 32) (h0 : off 0 = n.val) (h1 : off 1 = 0) (h2 : off 2 = 0) (d c : Fin 64) :
    View.ld x1 (Rect.unit (s := S32x64x64) off S1x64x64.size inb) (ix3 (0 : Fin 1) d c) = x1 (ix3 n d c) := by
  show x1 _ = x1 _
  refine congrArg x1 (funext fun a => Fin.ext ?_)
  match a with
  | ⟨0, _⟩ => show off 0 + 1 * 0 = n.val; omega
  | ⟨1, _⟩ => show off 1 + 1 * d.val = d.val; omega
  | ⟨2, _⟩ => show off 2 + 1 * c.val = c.val; omega

/-- A [1 × 64 × 8192] slice of the input block loaded at sample `j` reads the block's sample `j`. -/
theorem ld_sample (x0 : Vec Ideal S4x64x8192 .f32) (off : Fin 3 → Nat) (inb : ∀ a, off a + S1x64x8192.size a ≤ S4x64x8192.size a)
    (j : Fin 4) (h0 : off 0 = j.val) (h1 : off 1 = 0) (h2 : off 2 = 0) (c : Fin 64) (t : Fin 8192) :
    View.ld x0 (Rect.unit (s := S4x64x8192) off S1x64x8192.size inb) (ix3 (0 : Fin 1) c t) = x0 (ix3 j c t) := by
  show x0 _ = x0 _
  refine congrArg x0 (funext fun a => Fin.ext ?_)
  match a with
  | ⟨0, _⟩ => show off 0 + 1 * 0 = j.val; omega
  | ⟨1, _⟩ => show off 1 + 1 * c.val = c.val; omega
  | ⟨2, _⟩ => show off 2 + 1 * t.val = t.val; omega

/-- Where a piece's index sits in the block: piece `j`'s entry (0, d, t) is the block's (j, d, t). -/
theorem emb_piece (off : Fin 3 → Nat) (inb : ∀ a, off a + S1x64x8192.size a ≤ S4x64x8192.size a)
    (j : Fin 4) (h0 : off 0 = j.val) (h1 : off 1 = 0) (h2 : off 2 = 0) (d : Fin 64) (t : Fin 8192) :
    (Rect.unit (s := S4x64x8192) off S1x64x8192.size inb).emb (ix3 (0 : Fin 1) d t) = ix3 j d t := by
  refine funext fun a => Fin.ext ?_
  match a with
  | ⟨0, _⟩ => show off 0 + 1 * 0 = j.val; omega
  | ⟨1, _⟩ => show off 1 + 1 * d.val = d.val; omega
  | ⟨2, _⟩ => show off 2 + 1 * t.val = t.val; omega

/-- One piece agrees with the one function under its rectangle: the piece of sample `j` holds, at (0, d, t), the
    contraction of row `n j` of the table with sample `j` of the input block. -/
theorem piece_ok (x0 : Vec Ideal S4x64x8192 .f32) (x1 : Vec Ideal S32x64x64 .bf16) (n : Fin 4 → Fin 32)
    (arg2 : Memref sig .tc .vmem S4x64x8192 .f32) (harg2 : arg2.IsWhole) (arg3 : Memref sig .tc .vmem S32x64x64 .bf16) (harg3 : arg3.IsWhole)
    (j : Fin 4) (offw : Fin 3 → Nat) (inbw : ∀ a, offw a + S1x64x64.size a ≤ S32x64x64.size a)
    (offx : Fin 3 → Nat) (inbx : ∀ a, offx a + S1x64x8192.size a ≤ S4x64x8192.size a)
    (hw0 : offw 0 = (n j).val) (hw1 : offw 1 = 0) (hw2 : offw 2 = 0) (hx0 : offx 0 = j.val) (hx1 : offx 1 = 0) (hx2 : offx 2 = 0)
    (x : (Rect.unit (s := S4x64x8192) offx S1x64x8192.size inbx).shape.Idx) :
    k0_pay3 (F := Ideal) (View.readAt (Elt Ideal) arg3.view (Rect.unit (s := S32x64x64) offw S1x64x64.size inbw).toLoadRect (harg3.unread x1))
        (View.readAt (Elt Ideal) arg2.view (Rect.unit (s := S4x64x8192) offx S1x64x8192.size inbx).toLoadRect (harg2.unread x0)) x
      = blockOf x0 x1 n ((Rect.unit (s := S4x64x8192) offx S1x64x8192.size inbx).emb x) := by
  obtain ⟨z, d, t, rfl⟩ : ∃ (z : Fin 1) (d : Fin 64) (t : Fin 8192), x = ix3 z d t := ⟨x 0, x 1, x 2, eq_ix3 x⟩
  obtain rfl : z = 0 := Subsingleton.elim _ _
  rw [emb_piece offx inbx j hx0 hx1 hx2 d t]
  refine (Payload.pay_apply _ _ d t).trans ?_
  show _ = ∑ c : Fin 64, (x1 (ix3 (n j) d c) : EReal) * (x0 (ix3 j c t) : EReal)
  refine Finset.sum_congr rfl fun c _ => ?_
  rw [View.readAt_eq_ld, View.readAt_eq_ld, harg3.read_unread, harg2.read_unread,
    ld_row x1 offw inbw (n j) hw0 hw1 hw2 d c, ld_sample x0 offx inbx j hx0 hx1 hx2 c t]

/-- The four pieces the run found, read back as the one function. -/
theorem out_eq (c : Dev nD) (i : grid0.Coords) (arg2 : Memref sig .tc .vmem S4x64x8192 .f32) (harg2 : arg2.IsWhole) (arg3 : Memref sig .tc .vmem S32x64x64 .bf16) (harg3 : arg3.IsWhole) (arg4 : Memref sig .tc .vmem S4x64x8192 .f32) (harg4 : arg4.IsWhole)
    (x0 : Vec Ideal S4x64x8192 .f32) (x1 : Vec Ideal S32x64x64 .bf16) (xt0 : TbBuf0 (F := Ideal) c tbM0_0) (k0_hw1 : k0_chk1 (tbM0_0.view.readAt (Elt Ideal) (Rect.unit (s := S128) (k0_off1 i) S1.size (k0_off1_inb i)).toLoadRect xt0 (Shape.Idx.first (numel1_S1.symm ▸ Nat.one_pos)))) (k0_hw2 : k0_chk2 (tbM0_0.view.readAt (Elt Ideal) (Rect.unit (s := S128) (k0_off3 i) S1.size (k0_off3_inb i)).toLoadRect xt0 (Shape.Idx.first (numel1_S1.symm ▸ Nat.one_pos)))) (k0_hw3 : k0_chk3 (tbM0_0.view.readAt (Elt Ideal) (Rect.unit (s := S128) (k0_off5 i) S1.size (k0_off5_inb i)).toLoadRect xt0 (Shape.Idx.first (numel1_S1.symm ▸ Nat.one_pos)))) (k0_hw4 : k0_chk4 (tbM0_0.view.readAt (Elt Ideal) (Rect.unit (s := S128) (k0_off7 i) S1.size (k0_off7_inb i)).toLoadRect xt0 (Shape.Idx.first (numel1_S1.symm ▸ Nat.one_pos))))
    (n : Fin 4 → Fin 32)
    (hn0 : (tbM0_0.view.readAt (Elt Ideal) (Rect.unit (s := S128) (k0_off1 i) S1.size (k0_off1_inb i)).toLoadRect xt0 (Shape.Idx.first (numel1_S1.symm ▸ Nat.one_pos))).toNat = (n 0).val)
    (hn1 : (tbM0_0.view.readAt (Elt Ideal) (Rect.unit (s := S128) (k0_off3 i) S1.size (k0_off3_inb i)).toLoadRect xt0 (Shape.Idx.first (numel1_S1.symm ▸ Nat.one_pos))).toNat = (n 1).val)
    (hn2 : (tbM0_0.view.readAt (Elt Ideal) (Rect.unit (s := S128) (k0_off5 i) S1.size (k0_off5_inb i)).toLoadRect xt0 (Shape.Idx.first (numel1_S1.symm ▸ Nat.one_pos))).toNat = (n 2).val)
    (hn3 : (tbM0_0.view.readAt (Elt Ideal) (Rect.unit (s := S128) (k0_off7 i) S1.size (k0_off7_inb i)).toLoadRect xt0 (Shape.Idx.first (numel1_S1.symm ▸ Nat.one_pos))).toNat = (n 3).val) :
    out0_A_2 c i arg2 harg2 arg3 harg3 arg4 harg4 x0 x1 xt0 k0_hw1 k0_hw2 k0_hw3 k0_hw4 = blockOf x0 x1 n := by
  unfold out0_A_2
  rw [View.read_writes_eq_canon _ _ _ (cover0_A_2 c i arg2 harg2 arg3 harg3 arg4 harg4 x0 x1 xt0 k0_hw1 k0_hw2 k0_hw3 k0_hw4)]
  funext y
  refine View.canon_apply_of_pieces (blockOf x0 x1 n) _ ?_ y (cover0_A_2 c i arg2 harg2 arg3 harg3 arg4 harg4 x0 x1 xt0 k0_hw1 k0_hw2 k0_hw3 k0_hw4 y)
  unfold kernelRun0_A
  dsimp only
  sl_unfold_run_names
  refine List.forall_mem_cons.2 ⟨?_, List.forall_mem_cons.2 ⟨?_, List.forall_mem_cons.2 ⟨?_, List.forall_mem_cons.2 ⟨?_,
    fun _ h => absurd h List.not_mem_nil⟩⟩⟩⟩
  · exact piece_ok x0 x1 n arg2 harg2 arg3 harg3 3 _ _ _ _ hn3 rfl rfl rfl rfl rfl
  · exact piece_ok x0 x1 n arg2 harg2 arg3 harg3 2 _ _ _ _ hn2 rfl rfl rfl rfl rfl
  · exact piece_ok x0 x1 n arg2 harg2 arg3 harg3 1 _ _ _ _ hn1 rfl rfl rfl rfl rfl
  · exact piece_ok x0 x1 n arg2 harg2 arg3 harg3 0 _ _ _ _ hn0 rfl rfl rfl rfl rfl

end Cert.KernelIdeal.OutBlock

end
-- ==== Proof.Spec.lean ====
/-
  The function both programs compute. Sample b of the batch is routed to ONE [64 × 64] matrix of the weight table,
  the row its id names, and is multiplied by it along the channel axis:

      out[b, d, t] = Σ_c  weights[row b, c, d] · x[b, c, t]        (b < 128, c, d < 64, t < 8192).

  The row is the id word read as a natural number, capped at 31 so that the selector is total; under the
  precondition the cap never binds.
-/
import Idealize.ShloMosaic.PureOps.Ideal
import Idealize.ShloMosaic.Lib.ValueIdx

noncomputable section

namespace Cert.Spec

open Idealize.ShloMosaic Idealize.ShloMosaic.ValueIdx

/-- The row of the weight table sample `b` is routed to. -/
def row (ids : (⟨1, ![128]⟩ : Shape).Idx → BitVec 32) (b : Fin 128) : Fin 32 :=
  ⟨min (ids (ix1 b)).toNat 31, by omega⟩

/-- Where the id is in range the row is the id. -/
theorem row_val (ids : (⟨1, ![128]⟩ : Shape).Idx → BitVec 32) (b : Fin 128) (h : (ids (ix1 b)).toNat < 32) :
    (row ids b).val = (ids (ix1 b)).toNat := by
  show min (ids (ix1 b)).toNat 31 = _
  omega

/-- One entry of the result: the channel contraction of sample `b`'s column `t` with column `d` of its matrix. -/
def routedAt (x : (⟨3, ![128, 64, 8192]⟩ : Shape).Idx → EReal) (w : (⟨3, ![32, 64, 64]⟩ : Shape).Idx → EReal)
    (ids : (⟨1, ![128]⟩ : Shape).Idx → BitVec 32) (b : Fin 128) (d : Fin 64) (t : Fin 8192) : EReal :=
  ∑ c : Fin 64, w (ix3 (row ids b) c d) * x (ix3 b c t)

/-- The whole result array. -/
def routed (x : (⟨3, ![128, 64, 8192]⟩ : Shape).Idx → EReal) (w : (⟨3, ![32, 64, 64]⟩ : Shape).Idx → EReal)
    (ids : (⟨1, ![128]⟩ : Shape).Idx → BitVec 32) : (⟨3, ![128, 64, 8192]⟩ : Shape).Idx → EReal :=
  fun i => routedAt x w ids (i 0) (i 1) (i 2)

theorem routed_ix3 (x : (⟨3, ![128, 64, 8192]⟩ : Shape).Idx → EReal) (w : (⟨3, ![32, 64, 64]⟩ : Shape).Idx → EReal)
    (ids : (⟨1, ![128]⟩ : Shape).Idx → BitVec 32) (b : Fin 128) (d : Fin 64) (t : Fin 8192) :
    routed x w ids (ix3 b d t) = routedAt x w ids b d t := rfl

end Cert.Spec

end
-- ==== Proof.ValueKernelIdeal.lean ====
/-
  The kernel's result array. Grid point t handles the four samples 4t … 4t+3: its input block is those samples of x,
  its output block those samples of the result, and the table of matrices (the weights with their last two axes
  exchanged) is one block, the same at every point. With the block-level function of the previous module, block t of
  the result is block t of the routed product, the 32 blocks tile the array, and so the array ends holding the routed
  product of the arguments.
-/
import proofs.«409785_j68839735820624_3_alg».proof.Proof.Gen.KernelIdeal.Frame
import proofs.«409785_j68839735820624_3_alg».proof.Proof.OutBlockKernelIdeal
import proofs.«409785_j68839735820624_3_alg».proof.Proof.RouteKernelIdeal
import proofs.«409785_j68839735820624_3_alg».proof.Proof.Spec
import Idealize.ShloMosaic.Lib.Pipeline.Value
import Idealize.ShloMosaic.Lib.StableHlo.Run
import Idealize.ShloMosaic.Lib.ValueIdx

set_option maxRecDepth 16384

noncomputable section

namespace Cert.KernelIdeal.RouteValue

open Cert.KernelIdeal Cert.KernelIdeal.Gen
open Idealize.ShloMosaic Idealize.ShloMosaic.TcCoe Idealize.ShloMosaic.Tactic Idealize.SL.Sem Idealize.ShloMosaic.StableHlo
open Idealize.ShloMosaic.ValueIdx
open Idealize.ShloMosaic.Pipeline (Dat)

variable (m : (ℓ : Loc nD τ sig) → Buf (Elt Ideal) ℓ) (ρ : Dev nD → PrngReg)

/-- The block index of each window at grid point t, decided over the 32 points: the input and the output move one
    block of four samples per point, the table of matrices stays. -/
theorem idx_facts : ∀ t : Fin grid0.N,
    cc0_transform_0 (grid0.coords t) 0 = t.val ∧ cc0_transform_0 (grid0.coords t) 1 = 0 ∧ cc0_transform_0 (grid0.coords t) 2 = 0
    ∧ cc0_transform_1 (grid0.coords t) 0 = 0 ∧ cc0_transform_1 (grid0.coords t) 1 = 0 ∧ cc0_transform_1 (grid0.coords t) 2 = 0
    ∧ cc0_transform_2 (grid0.coords t) 0 = t.val ∧ cc0_transform_2 (grid0.coords t) 1 = 0 ∧ cc0_transform_2 (grid0.coords t) 2 = 0 := by
  decide +kernel

/-- Sample j of grid point t. -/
abbrev samp (t : Nat) (ht : t < 32) (j : Fin 4) : Fin 128 := ⟨4 * t + j.val, by omega⟩

/-- Where the input block's entry (j, c, s) sits in x: at sample 4t + j. -/
theorem emb_x (a : (pcfg0 (F := Ideal)).Adm) (t : Fin (cfg0 a).N) (ht : t.val < 32) (j : Fin 4) (c : Fin 64) (s : Fin 8192) :
    (((cfg0 a).win 0).blk t).view.emb (ix3 j c s : S4x64x8192.Idx) = (ix3 (samp t.val ht j) c s : S128x64x8192.Idx) := by
  obtain ⟨e00, e01, e02, -⟩ := idx_facts t
  refine funext fun b => Fin.ext ?_
  match b with
  | ⟨0, _⟩ => show cc0_transform_0 (grid0.coords t) 0 * 4 + 1 * j.val = 4 * t.val + j.val; rw [e00]; omega
  | ⟨1, _⟩ => show cc0_transform_0 (grid0.coords t) 1 * 64 + 1 * c.val = c.val; rw [e01]; omega
  | ⟨2, _⟩ => show cc0_transform_0 (grid0.coords t) 2 * 8192 + 1 * s.val = s.val; rw [e02]; omega

/-- The table's one block is the whole table. -/
theorem emb_w (a : (pcfg0 (F := Ideal)).Adm) (t : Fin (cfg0 a).N) (r : Fin 32) (d c : Fin 64) :
    (((cfg0 a).win 1).blk t).view.emb (ix3 r d c : S32x64x64.Idx) = (ix3 r d c : S32x64x64.Idx) := by
  obtain ⟨-, -, -, e10, e11, e12, -⟩ := idx_facts t
  refine funext fun b => Fin.ext ?_
  match b with
  | ⟨0, _⟩ => show cc0_transform_1 (grid0.coords t) 0 * 32 + 1 * r.val = r.val; rw [e10]; omega
  | ⟨1, _⟩ => show cc0_transform_1 (grid0.coords t) 1 * 64 + 1 * d.val = d.val; rw [e11]; omega
  | ⟨2, _⟩ => show cc0_transform_1 (grid0.coords t) 2 * 64 + 1 * c.val = c.val; rw [e12]; omega

/-- Where the output block's entry (j, d, s) sits in the result: at sample 4t + j. -/
theorem emb_o (a : (pcfg0 (F := Ideal)).Adm) (t : Fin (cfg0 a).N) (ht : t.val < 32) (j : Fin 4) (d : Fin 64) (s : Fin 8192) :
    (((cfg0 a).win 2).blk t).view.emb (ix3 j d s : S4x64x8192.Idx) = (ix3 (samp t.val ht j) d s : S128x64x8192.Idx) := by
  obtain ⟨-, -, -, -, -, -, e20, e21, e22⟩ := idx_facts t
  refine funext fun b => Fin.ext ?_
  match b with
  | ⟨0, _⟩ => show cc0_transform_2 (grid0.coords t) 0 * 4 + 1 * j.val = 4 * t.val + j.val; rw [e20]; omega
  | ⟨1, _⟩ => show cc0_transform_2 (grid0.coords t) 1 * 64 + 1 * d.val = d.val; rw [e21]; omega
  | ⟨2, _⟩ => show cc0_transform_2 (grid0.coords t) 2 * 8192 + 1 * s.val = s.val; rw [e22]; omega

/-- The two input blocks at point t, named at their literal types. -/
abbrev xblk (hO : Ok m) (c : Dev nD) (t : Fin (cfgM m hO).N) : Vec Ideal S4x64x8192 .f32 := iblk m hO c 0 t
abbrev wblk (hO : Ok m) (c : Dev nD) (t : Fin (cfgM m hO).N) : Vec Ideal S32x64x64 .bf16 := iblk m hO c 1 t

/-- The table of matrices as the launch finds it: the weights with their last two axes exchanged (the change of
    float format is the identity here). -/
theorem V_w (c : Dev nD) : (V m c main_v2 : S32x64x64.Idx → EReal)
    = truncf (F := Ideal) .bf16 (transpose S32x64x64 [0, 2, 1] (m ((c : Thread nD τ).loc main_arg1)) transposes_S32x64x64_S32x64x64_0_2_1) bitsLt_bf16_f32 := by
  dsimp only [V]
  simp only [hostOps0, hostOps0_1, hostOps0_2, List.flatten_cons, List.flatten_nil, List.append_nil, List.cons_append, List.nil_append]
  after_results

/-- The input block at point t, entry (j, c, s): x at sample 4t + j. -/
theorem xblk_apply (hO : Ok m) (c : Dev nD) (t : Fin (cfgM m hO).N) (ht : t.val < 32) (j : Fin 4) (c' : Fin 64) (s : Fin 8192) :
    (xblk m hO c t (ix3 j c' s) : EReal)
      = m ((c : Thread nD τ).loc main_arg0) (ix3 (samp t.val ht j) c' s) := by
  unfold xblk iblk
  show V m c main_arg0 ((((cfgM m hO).win 0).blk t).view.emb (ix3 j c' s : S4x64x8192.Idx)) = _
  rw [emb_x (adm m hO) t ht j c' s, V_main_arg0]

/-- The table block at any point, entry (r, d, c): the weights at (r, c, d). -/
theorem wblk_apply (hO : Ok m) (c : Dev nD) (t : Fin (cfgM m hO).N) (r : Fin 32) (d c' : Fin 64) :
    (wblk m hO c t (ix3 r d c') : EReal)
      = m ((c : Thread nD τ).loc main_arg1) (ix3 r c' d) := by
  unfold wblk iblk
  show (V m c main_v2 : S32x64x64.Idx → EReal) ((((cfgM m hO).win 1).blk t).view.emb (ix3 r d c' : S32x64x64.Idx)) = _
  rw [emb_w (adm m hO) t r d c', V_w]
  refine (truncf_apply (ψ := .bf16) _ bitsLt_bf16_f32 _).trans ?_
  exact transpose_apply [0, 2, 1] _ transposes_S32x64x64_S32x64x64_0_2_1 (ix3 r d c') (ix3 r c' d)
    (fun b => by match b with | ⟨0, _⟩ => rfl | ⟨1, _⟩ => rfl | ⟨2, _⟩ => rfl)

/-- The rows of the table the four samples of point t are routed to. -/
abbrev rowAt (t : Nat) (ht : t < 32) : Fin 4 → Fin 32 := fun j => Cert.Spec.row (Route.ids m) (samp t ht j)

/-- The word the body reads at table position 4t + j, as a row of the table: it is the id of sample 4t + j. -/
theorem word_row (hids : ∀ k, (Route.ids m k).toNat < 32) (c : Dev nD) (t : Nat) (ht : t < 32) (j : Fin 4)
    (off : Fin 1 → Nat) (inb : ∀ a, off a + S1.size a ≤ S128.size a) (h1 : 0 < S1.numel) (hoff : off 0 = 4 * t + j.val) :
    (tbM0_0.view.readAt (Elt Ideal) (Rect.unit (s := S128) off S1.size inb).toLoadRect (tbl m 0) (Shape.Idx.first h1)).toNat
      = (rowAt m t ht j).val := by
  rw [Route.word c (tbl m 0) off inb h1 (samp t ht j) hoff, Route.tbl_apply m hids]
  exact (Cert.Spec.row_val _ _ (hids _)).symm

/-- The routed product of the arguments as launched. -/
abbrev result (c : Dev nD) : S128x64x8192.Idx → EReal :=
  Cert.Spec.routed (m ((c : Thread nD τ).loc main_arg0)) (m ((c : Thread nD τ).loc main_arg1)) (m ((c : Thread nD τ).loc main_arg2))

/-- WHAT POINT t WRITES BACK is block t of the routed product. -/
theorem flushed_eq (hids : ∀ k, (Route.ids m k).toNat < 32) (hO : Ok m) (hH : Hyps m hO) (c : Dev nD) (t : Fin (cfgM m hO).N) :
    (dats m hO hH 0 c).flushed 2 t = (((cfgM m hO).win 2).blk t).view.read (Elt Ideal) (result m c) := by
  obtain rfl : c = 0 := Subsingleton.elim _ _
  have ht : t.val < 32 := by have := t.isLt; have hN : (cfgM m hO).N = 32 := N_0; omega
  obtain ⟨e1, e3, e5, e7⟩ := Route.offs t
  show ((cfgM m hO).win 2).cut (grid0.coords t) ((dats m hO hH 0 0).after 2 t) = _
  rw [after0_2]
  unfold outsAt0
  rw [OutBlock.out_eq 0 (grid0.coords t) (ms0_0 m hO t) (hs0_0 m hO t) (ms0_1 m hO t) (hs0_1 m hO t) (ms0_2 m hO t) (hs0_2 m hO t)
    (iblk m hO 0 0 t) (iblk m hO 0 1 t) (tbl m 0) (Hyps.c0 hH 0 t) (Hyps.c1 hH 0 t) (Hyps.c2 hH 0 t) (Hyps.c3 hH 0 t) (rowAt m t.val ht)
    (word_row m hids 0 t.val ht 0 _ _ _ (by show k0_off1 (grid0.coords t) 0 = 4 * t.val + 0; omega))
    (word_row m hids 0 t.val ht 1 _ _ _ (by show k0_off3 (grid0.coords t) 0 = 4 * t.val + 1; omega))
    (word_row m hids 0 t.val ht 2 _ _ _ (by show k0_off5 (grid0.coords t) 0 = 4 * t.val + 2; omega))
    (word_row m hids 0 t.val ht 3 _ _ _ (by show k0_off7 (grid0.coords t) 0 = 4 * t.val + 3; omega))]
  refine funext fun (y : S4x64x8192.Idx) => ?_
  obtain ⟨j, d, s, rfl⟩ : ∃ (j : Fin 4) (d : Fin 64) (s : Fin 8192), y = ix3 j d s := ⟨y 0, y 1, y 2, eq_ix3 y⟩
  show (∑ c' : Fin 64, (wblk m hO 0 t (ix3 (rowAt m t.val ht j) d c') : EReal) * (xblk m hO 0 t (ix3 j c' s) : EReal))
    = result m 0 ((((cfgM m hO).win 2).blk t).view.emb (ix3 j d s : S4x64x8192.Idx))
  rw [emb_o (adm m hO) t ht j d s]
  show _ = Cert.Spec.routedAt _ _ _ (samp t.val ht j) d s
  unfold Cert.Spec.routedAt
  refine Finset.sum_congr rfl fun c' _ => ?_
  rw [xblk_apply m hO 0 t ht j c' s, wblk_apply m hO 0 t _ d c']

-- the window at the table's contents unfolds to the printed one only past the instance transparency a rewrite matches at
set_option backward.isDefEq.respectTransparency.types false in
/-- An index of the result is in point t's block iff its sample is one of t's four. -/
theorem mem_blk (a : (pcfg0 (F := Ideal)).Adm) (t : Fin (cfg0 a).N) (i : S128x64x8192.Idx) :
    i ∈ (((cfg0 a).win 2).blk t).view.set ↔ ∀ b : Fin 3, cc0_transform_2 (grid0.coords t) b * S4x64x8192.size b ≤ (i b).val
      ∧ (i b).val < cc0_transform_2 (grid0.coords t) b * S4x64x8192.size b + S4x64x8192.size b := by
  show i ∈ ((View.whole main_v3).slice (((cfg0 a).win 2).rect t)).set ↔ _
  rw [View.set_slice_whole]
  exact Rect.mem_set_unit

/-- THE ARRAY after the run: every sample b lies in the block of point b / 4, so the 32 blocks cover the result and
    it ends holding the routed product. -/
theorem final (hids : ∀ k, (Route.ids m k).toNat < 32) (hO : Ok m) (hH : Hyps m hO) (c : Dev nD) :
    (dats m hO hH 0 c).arrAt 2 (cfgM m hO).N = result m c :=
  (dats m hO hH 0 c).arrAt_eq_of_cover 2 (result m c) (fun t _ => flushed_eq m hids hO hH c t) fun (i : S128x64x8192.Idx) => by
    have h0 : (i 0).val < 128 := (i 0).isLt
    have h1 : (i 1).val < 64 := (i 1).isLt
    have h2 : (i 2).val < 8192 := (i 2).isLt
    have hN : (cfgM m hO).N = 32 := N_0
    have hN' : (cfg0 (adm m hO)).N = 32 := N_0
    refine ⟨⟨(i 0).val / 4, by omega⟩, flush0_2 (adm m hO) _, (mem_blk (adm m hO) ⟨(i 0).val / 4, by omega⟩ i).mpr ?_⟩
    obtain ⟨-, -, -, -, -, -, e20, e21, e22⟩ := idx_facts ⟨(i 0).val / 4, by have : grid0.N = 32 := N_0; omega⟩
    intro b
    match b with
    | ⟨0, _⟩ =>
      show cc0_transform_2 (grid0.coords ⟨(i 0).val / 4, _⟩) 0 * 4 ≤ (i 0).val ∧ (i 0).val < cc0_transform_2 (grid0.coords ⟨(i 0).val / 4, _⟩) 0 * 4 + 4
      rw [e20]; dsimp only; omega
    | ⟨1, _⟩ =>
      show cc0_transform_2 (grid0.coords ⟨(i 0).val / 4, _⟩) 1 * 64 ≤ (i 1).val ∧ (i 1).val < cc0_transform_2 (grid0.coords ⟨(i 0).val / 4, _⟩) 1 * 64 + 64
      rw [e21]; omega
    | ⟨2, _⟩ =>
      show cc0_transform_2 (grid0.coords ⟨(i 0).val / 4, _⟩) 2 * 8192 ≤ (i 2).val ∧ (i 2).val < cc0_transform_2 (grid0.coords ⟨(i 0).val / 4, _⟩) 2 * 8192 + 8192
      rw [e22]; omega

/-- The run, read: the result array at the routed product, the arguments unchanged. -/
theorem run (hids : ∀ k, (Route.ids m k).toNat < 32) (hO : Ok m) (hH : Hyps m hO) :
    θ_run defs (onTc (τ := τ) (main (F := Ideal))) ⟨m, fun _ => 0, ρ⟩ fun r => ∀ c : Dev nD,
      r.2.mem ((c : Thread nD τ).loc main_v3) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨((h c).1 2).trans (final m hids hO hH c),
      ((h c).1 0).trans (((dats m hO hH 0 c).arrAt_in 0 rfl _).trans ((A_eq m hO hH c 0).trans (V_main_arg0 m c))),
      ((h c).2 main_arg1 (by decide : main_arg1 ∈ Pipeline.restRefs sig spec0)).trans (V_main_arg1 m c),
      ((h c).2 main_arg2 (by decide : main_arg2 ∈ Pipeline.restRefs sig spec0)).trans (V_main_arg2 m c)⟩)
    (run_main m ρ hO hH)

end Cert.KernelIdeal.RouteValue

end
-- ==== Proof.GatherRow.lean ====
/-
  The reference's gather, read at an index. `weights[ids]` takes, for sample b, the whole [64 × 64] slice of the
  table that starts at row ids[b] (read signed, clamped so that the slice fits: into [0, 31]); entry (b, c, d) of the
  result is the table at (that row, c, d).
-/
import proofs.«409785_j68839735820624_3_alg».proof.Proof.Gen.ReferenceIdeal
import Idealize.ShloMosaic.Lib.ValueIdx

noncomputable section

namespace Cert.ReferenceIdeal.GatherRow

open Cert.ReferenceIdeal Cert.ReferenceIdeal.Gen Idealize.ShloMosaic Idealize.ShloMosaic.ValueIdx

abbrev D := gather_S32x64x64_S128x1_S128x64x64_12_0_n_n_0_1_16464

/-- Entry (b, c, d) of the gathered array is the table at (the clamped start row of sample b, c, d). -/
theorem gather_row {α : Type} (w : S32x64x64.Idx → α) (idx : IVec S128x1 32) (b : Fin 128) (c d : Fin 64) :
    Host.gather D w idx (ix3 b c d)
      = w (ix3 ⟨min (idx (ix2 b (0 : Fin 1))).toInt.toNat 31, by omega⟩ c d) := by
  unfold Host.gather
  refine congrArg w (funext fun a => Fin.ext ?_)
  show D.start (ix3 b c d) idx a + D.batchCoord (ix3 b c d) a + D.offCoord (ix3 b c d) a = _
  rw [GatherDims.batchCoord_eq_zero _ _ _ List.not_mem_nil]
  match a with
  | ⟨0, _⟩ =>
    -- the collapsed axis: no offset coordinate; the start is the clamped start index of sample b
    rw [GatherDims.offCoord_eq_zero _ _ _ (fun h => ((GatherDims.mem_sKept _ _).mp h).1 (List.mem_singleton.mpr rfl))]
    unfold GatherDims.start
    rw [dif_pos (show (⟨0, by decide⟩ : Fin S32x64x64.rank) ∈ D.startIndexMap from List.mem_singleton.mpr rfl)]
    have hsi : D.siIdx (ix3 b c d) ⟨List.idxOf (⟨0, by decide⟩ : Fin S32x64x64.rank) D.startIndexMap,
        List.idxOf_lt_length_iff.2 (List.mem_singleton.mpr rfl)⟩ = ix2 b (0 : Fin 1) := by
      funext e; refine Fin.ext ?_
      match e with
      | ⟨0, _⟩ => rfl
      | ⟨1, _⟩ => rfl
    rw [hsi]
    rfl
  | ⟨1, _⟩ =>
    -- a kept axis the start index map does not name: start 0, offset the result's coordinate on offset axis 1
    unfold GatherDims.start GatherDims.offCoord
    rw [dif_neg (show ¬(⟨1, by decide⟩ : Fin S32x64x64.rank) ∈ D.startIndexMap from by decide),
      dif_pos (show (⟨1, by decide⟩ : Fin S32x64x64.rank) ∈ D.sKept from by decide)]
    simp only [Nat.zero_add]
    rfl
  | ⟨2, _⟩ =>
    unfold GatherDims.start GatherDims.offCoord
    rw [dif_neg (show ¬(⟨2, by decide⟩ : Fin S32x64x64.rank) ∈ D.startIndexMap from by decide),
      dif_pos (show (⟨2, by decide⟩ : Fin S32x64x64.rank) ∈ D.sKept from by decide)]
    simp only [Nat.zero_add]
    rfl

end Cert.ReferenceIdeal.GatherRow

end
-- ==== Proof.RefValue.lean ====
/-
  The reference computes the routed product. Its last stage is a batched contraction over the channel axis,
  Σ_c  gathered[b, c, d] · x[b, c, t]; the gathered array is the weight table at the row the (wrapped, clamped) id of
  sample b names; and for an id in [0, 32) the wrap of negative indices and the clamp into the table both leave the id
  alone, so the row is the id.
-/
import proofs.«409785_j68839735820624_3_alg».proof.Proof.Gen.ReferenceIdeal.Run
import proofs.«409785_j68839735820624_3_alg».proof.Proof.Gen.ReferenceIdeal.Read
import proofs.«409785_j68839735820624_3_alg».proof.Proof.GatherRow
import proofs.«409785_j68839735820624_3_alg».proof.Proof.Spec
import proofs.«409785_j68839735820624_3_alg».proof.Proof.Words

noncomputable section

namespace Cert.ReferenceIdeal.RefValue

open Cert.ReferenceIdeal Cert.ReferenceIdeal.Gen Cert.ReferenceIdeal.Read
open Idealize.ShloMosaic Idealize.ShloMosaic.ValueIdx

/-- The start index the gather reads for sample `b` is the id itself when the id is in range: it is not negative,
    so the wrap `id + 32` is not selected. -/
theorem start_eq (ids : (⟨S128, .i32⟩ : BufTy).Contents (Elt Ideal)) (b : Fin 128) (h : (ids (ix1 b)).toNat < 32) :
    val_main_v5 (F := Ideal) ids (ix2 b (0 : Fin 1)) = ids (ix1 b) := by
  have e5 : idx_main_v5 (ix2 b (0 : Fin 1)) = ix1 b := funext fun a => Fin.ext (by match a with | ⟨0, _⟩ => rfl)
  rw [val_main_v5_apply, e5, val_main_v4_apply, val_main_v1_apply, val_main_v3_apply, val_main_v0_apply,
    val_main_v2_apply, val_main_c_apply, val_main_c_0_apply]
  exact Cert.Words.wrap_eq _ h

/-- The reference's result array is the routed product of its arguments, when every id is in range. -/
theorem ref_eq (x : (⟨S128x64x8192, .f32⟩ : BufTy).Contents (Elt Ideal)) (w : (⟨S32x64x64, .f32⟩ : BufTy).Contents (Elt Ideal))
    (ids : (⟨S128, .i32⟩ : BufTy).Contents (Elt Ideal)) (hids : ∀ k, (ids k).toNat < 32) :
    val_main_v7 (F := Ideal) x w ids = Cert.Spec.routed x w ids := by
  funext i
  obtain ⟨b, d, t, rfl⟩ : ∃ (b : Fin 128) (d : Fin 64) (t : Fin 8192), i = ix3 b d t := ⟨i 0, i 1, i 2, eq_ix3 i⟩
  rw [val_main_v7_apply, Cert.Spec.routed_ix3]
  unfold Cert.Spec.routedAt
  refine Finset.sum_congr rfl fun c _ => ?_
  have el : lidx_main_v7 (ix3 b d t) c = ix3 b c d :=
    funext fun a => Fin.ext (by match a with | ⟨0, _⟩ => rfl | ⟨1, _⟩ => rfl | ⟨2, _⟩ => rfl)
  have er : ridx_main_v7 (ix3 b d t) c = ix3 b c t :=
    funext fun a => Fin.ext (by match a with | ⟨0, _⟩ => rfl | ⟨1, _⟩ => rfl | ⟨2, _⟩ => rfl)
  rw [el, er]
  refine congrArg (· * x (ix3 b c t)) ?_
  unfold val_main_v6
  rw [Cert.ReferenceIdeal.GatherRow.gather_row]
  refine congrArg w (funext fun a => Fin.ext ?_)
  match a with
  | ⟨0, _⟩ =>
    show min (val_main_v5 (F := Ideal) ids (ix2 b (0 : Fin 1))).toInt.toNat 31 = min (ids (ix1 b)).toNat 31
    rw [start_eq ids b (hids _), Cert.Words.toInt_eq _ (hids _), Int.toNat_natCast]
  | ⟨1, _⟩ => rfl
  | ⟨2, _⟩ => rfl

end Cert.ReferenceIdeal.RefValue

end
-- ==== Proof.lean ====
/-
  Conditional layers: every sample of a batch is multiplied, along its channel axis, by the one [64 × 64] matrix
  its routing id names in a table of 32 matrices,

      out[b, d, t] = Σ_c  weights[id b, c, d] · x[b, c, t]            (b < 128, c, d < 64, t < 8192).

  The kernel handles four samples per grid point. It keeps the whole table resident (with the last two axes exchanged
  beforehand, so that the product is a plain row-by-column one), reads each sample's id from a prefetched table of
  ids clipped to [0, 31], takes that matrix, and multiplies. The reference gathers one matrix per sample (a negative
  id wrapped by 32, the start clamped into the table) and contracts the batch. Over the extended reals both are the
  sum above, term by term in the same order: no law of arithmetic is needed, only the reading of which entries meet.

  The statement is made under the ids lying in [0, 32), the range of the table they index. There the clip, the wrap
  and the clamp all leave an id alone, so both programs read row id b; and the kernel's dynamic first-axis index of
  the resident table is in range, which is what lets its body run at all. (At id = −1 the two programs part: the
  wrap sends the reference to row 31, the clip sends the kernel to row 0.)

  The three frames: the two kernel programs by their frame certificates, under the body's side conditions, which
  hold because every word of the clipped table is below 32; the reference by its run. The idealization rewrote
  nothing. The algebraic claim: both result arrays are the routed product of the arguments.
-/
import proofs.«409785_j68839735820624_3_alg».proof.Defs
import proofs.«409785_j68839735820624_3_alg».proof.Proof.Gen.Kernel
import proofs.«409785_j68839735820624_3_alg».proof.Proof.Gen.Kernel.Frame
import proofs.«409785_j68839735820624_3_alg».proof.Proof.Gen.KernelIdeal
import proofs.«409785_j68839735820624_3_alg».proof.Proof.Gen.KernelIdeal.Frame
import proofs.«409785_j68839735820624_3_alg».proof.Proof.Gen.ReferenceIdeal
import proofs.«409785_j68839735820624_3_alg».proof.Proof.Gen.ReferenceIdeal.Run
import proofs.«409785_j68839735820624_3_alg».proof.Proof.Gen.ReferenceIdeal.Read
import proofs.«409785_j68839735820624_3_alg».proof.Proof.Gen.Pre_finite_inputs
import proofs.«409785_j68839735820624_3_alg».proof.Proof.PreIds
import proofs.«409785_j68839735820624_3_alg».proof.Proof.RouteKernel
import proofs.«409785_j68839735820624_3_alg».proof.Proof.RouteKernelIdeal
import proofs.«409785_j68839735820624_3_alg».proof.Proof.ValueKernelIdeal
import proofs.«409785_j68839735820624_3_alg».proof.Proof.RefValue
import Idealize.ShloMosaic.Adequacy
import Idealize.ShloMosaic.Init

noncomputable section

namespace Cert.Proof

open Idealize.ShloMosaic Idealize.ShloMosaic.TcCoe Idealize.SL.Sem

/-- The word-level kernel runs: its body's side conditions hold, every id being in [0, 32). -/
theorem frame_k : Cert.frame_Kernel := fun m ρ h =>
  Cert.Kernel.Gen.frame m ρ trivial
    (Cert.Kernel.Route.hyps_of_ids m (fun k => Cert.PreIds.ids_lt _ _ _ (h 0) k) trivial)

/-- So does its idealization. -/
theorem frame_ki : Cert.frame_KernelIdeal := fun m ρ h =>
  Cert.KernelIdeal.Gen.frame m ρ trivial
    (Cert.KernelIdeal.Route.hyps_of_ids m (fun k => Cert.PreIds.ids_lt _ _ _ (h 0) k) trivial)

/-- The reference is host operations only: its run, the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Both programs end with the routed product of the (agreeing) arguments in their result arrays. -/
theorem algebraic : Cert.algebraic_KernelIdeal_ReferenceIdeal := by
  intro m ρ m' ρ' hpre hagree
  have hids : ∀ k, (Cert.KernelIdeal.Route.ids m k).toNat < 32 := fun k => Cert.PreIds.ids_lt _ _ _ (hpre 0) k
  refine ⟨fun c => Cert.KernelIdeal.RouteValue.result m c,
    Cert.KernelIdeal.RouteValue.run m ρ hids trivial (Cert.KernelIdeal.Route.hyps_of_ids m hids trivial), ?_⟩
  refine (θ_run Cert.ReferenceIdeal.defs _ _).mono (fun _ h c => ⟨(h c).1.trans ?_, (h c).2⟩)
    (Cert.ReferenceIdeal.Value.run (F := Ideal) m' ρ')
  obtain rfl : c = 0 := Subsingleton.elim _ _
  rw [Cert.ReferenceIdeal.Read.val_main_v7_eq, (hagree 0).1, (hagree 0).2.1, (hagree 0).2.2]
  exact Cert.ReferenceIdeal.RefValue.ref_eq _ _ _ hids

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
